-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x64 : Shape := ⟨2, ![10000, 64]⟩
abbrev S2x320000 : Shape := ⟨2, ![2, 320000]⟩
abbrev S64x64 : Shape := ⟨2, ![64, 64]⟩
abbrev S64 : Shape := ⟨1, ![64]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S10000x64 .f32) (main_arg1 : IVec S2x320000 32) (main_arg2 : FVec F S64x64 .f32) (main_arg3 : FVec F S64 .f32) : IVec S_ 1 :=
  let main_v0 : FVec F S10000x64 .f32 := Host.absf main_arg0
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S10000x64 : Shape := ⟨2, ![10000, 64]⟩
abbrev S2x320000 : Shape := ⟨2, ![2, 320000]⟩
abbrev S64x64 : Shape := ⟨2, ![64, 64]⟩
abbrev S64 : Shape := ⟨1, ![64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x64 : Shape := ⟨2, ![330000, 64]⟩
abbrev S1x64 : Shape := ⟨2, ![1, 64]⟩
abbrev S10240x64 : Shape := ⟨2, ![10240, 64]⟩
abbrev S10240x10240 : Shape := ⟨2, ![10240, 10240]⟩
abbrev S2048x64 : Shape := ⟨2, ![2048, 64]⟩
abbrev S2048x2048 : Shape := ⟨2, ![2048, 2048]⟩
abbrev S64x2048 : Shape := ⟨2, ![64, 2048]⟩
abbrev S10000x10000 : Shape := ⟨2, ![10000, 10000]⟩

abbrev nBuf : Space → Nat
  | .hbm => 69
  | .vmem => 6
  | .smem => 0
  | _ => 0

abbrev bufTy : (tb : Table) → Fin (tcTables nBuf tb) → BufTy
  | .hbm, ⟨0, _⟩ => ⟨S10000x64, .f32⟩
  | .hbm, ⟨1, _⟩ => ⟨S2x320000, .i32⟩
  | .hbm, ⟨2, _⟩ => ⟨S64x64, .f32⟩
  | .hbm, ⟨3, _⟩ => ⟨S64, .f32⟩
  | .hbm, ⟨4, _⟩ => ⟨S10000, .i32⟩
  | .hbm, ⟨5, _⟩ => ⟨S1x320000, .i32⟩
  | .hbm, ⟨6, _⟩ => ⟨S320000, .i32⟩
  | .hbm, ⟨7, _⟩ => ⟨S330000, .i32⟩
  | .hbm, ⟨8, _⟩ => ⟨S1x320000, .i32⟩
  | .hbm, ⟨9, _⟩ => ⟨S320000, .i32⟩
  | .hbm, ⟨10, _⟩ => ⟨S330000, .i32⟩
  | .hbm, ⟨11, _⟩ => ⟨S_, .f32⟩
  | .hbm, ⟨12, _⟩ => ⟨S330000, .f32⟩
  | .hbm, ⟨13, _⟩ => ⟨S_, .f32⟩
  | .hbm, ⟨14, _⟩ => ⟨S10000, .f32⟩
  | .hbm, ⟨15, _⟩ => ⟨S330000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .i1⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S330000, .i32⟩
  | .hbm, ⟨27, _⟩ => ⟨S330000, .i1⟩
  | .hbm, ⟨28, _⟩ => ⟨S_, .i32⟩
  | .hbm, ⟨29, _⟩ => ⟨S330000, .i32⟩
  | .hbm, ⟨30, _⟩ => ⟨S330000, .i32⟩
  | .hbm, ⟨31, _⟩ => ⟨S330000, .i32⟩
  | .hbm, ⟨32, _⟩ => ⟨S330000x1, .i32⟩
  | .hbm, ⟨33, _⟩ => ⟨S330000, .f32⟩
  | .hbm, ⟨34, _⟩ => ⟨S_, .i32⟩
  | .hbm, ⟨35, _⟩ => ⟨S330000, .i32⟩
  | .hbm, ⟨36, _⟩ => ⟨S330000, .i1⟩
  | .hbm, ⟨37, _⟩ => ⟨S_, .i32⟩
  | .hbm, ⟨38, _⟩ => ⟨S330000, .i32⟩
  | .hbm, ⟨39, _⟩ => ⟨S330000, .i32⟩
  | .hbm, ⟨40, _⟩ => ⟨S330000, .i32⟩
  | .hbm, ⟨41, _⟩ => ⟨S330000x1, .i32⟩
  | .hbm, ⟨42, _⟩ => ⟨S330000, .f32⟩
  | .hbm, ⟨43, _⟩ => ⟨S330000, .f32⟩
  | .hbm, ⟨44, _⟩ => ⟨S10000x64, .f32⟩
  | .hbm, ⟨45, _⟩ => ⟨S_, .i32⟩
  | .hbm, ⟨46, _⟩ => ⟨S330000, .i32⟩
  | .hbm, ⟨47, _⟩ => ⟨S330000, .i1⟩
  | .hbm, ⟨48, _⟩ => ⟨S_, .i32⟩
  | .hbm, ⟨49, _⟩ => ⟨S330000, .i32⟩
  | .hbm, ⟨50, _⟩ => ⟨S330000, .i32⟩
  | .hbm, ⟨51, _⟩ => ⟨S330000, .i32⟩
  | .hbm, ⟨52, _⟩ => ⟨S330000x1, .i32⟩
  | .hbm, ⟨53, _⟩ => ⟨S330000x64, .f32⟩
  | .hbm, ⟨54, _⟩ => ⟨S330000x1, .f32⟩
  | .hbm, ⟨55, _⟩ => ⟨S330000x64, .f32⟩
  | .hbm, ⟨56, _⟩ => ⟨S330000x64, .f32⟩
  | .hbm, ⟨57, _⟩ => ⟨S_, .f32⟩
  | .hbm, ⟨58, _⟩ => ⟨S10000x64, .f32⟩
  | .hbm, ⟨59, _⟩ => ⟨S330000x1, .i32⟩
  | .hbm, ⟨60, _⟩ => ⟨S10000x64, .f32⟩
  | .hbm, ⟨61, _⟩ => ⟨S1x64, .f32⟩
  | .hbm, ⟨62, _⟩ => ⟨S10000x64, .f32⟩
  | .hbm, ⟨63, _⟩ => ⟨S10000x64, .f32⟩
  | .hbm, ⟨64, _⟩ => ⟨S_, .i32⟩
  | .hbm, ⟨65, _⟩ => ⟨S_, .f32⟩
  | .hbm, ⟨66, _⟩ => ⟨S10240x64, .f32⟩
  | .hbm, ⟨67, _⟩ => ⟨S10240x10240, .f32⟩
  | .hbm, ⟨68, _⟩ => ⟨S10000x10000, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x2048, .f32⟩
  | .local _ .vmem, ⟨5, _⟩ => ⟨S2048x2048, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  pads_S10000x64_S10240x64_02400_000 : S10000x64.Pads (![0, 0] : Fin 2 → Nat) ![240, 0] ![0, 0] S10240x64
  h_S_ : 0 < S_.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  transposes_S2048x64_p1_0_S64x2048 : S2048x64.Transposes [1, 0] S64x2048
  inb_S2048x2048_S2048x2048_0_0 : ∀ a, (![0, 0] : Fin 2 → Nat) a + S2048x2048.size a ≤ S2048x2048.size a
  h_S2048x2048 : 0 < S2048x2048.numel
  slices_S10240x10240_S10000x10000_0_0 : S10240x10240.Slices ![0, 0] S10000x10000
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x64_S64x64_S10000x64_1_0_0_1_n_n_wf : DotDims.WF S10000x64 S64x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S2048x64_S64x2048_S2048x2048_1_0_0_1_n_n_wf : DotDims.WF S2048x64 S64x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S10240x64.size a
  hwx0_0 : ∀ i : grid0.Coords, EltTy.bits .f32 = 32 ∨ (Rect.block (s := S10240x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S10240x64.size a
  hwx0_1 : ∀ i : grid0.Coords, EltTy.bits .f32 = 32 ∨ (Rect.block (s := S10240x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S10240x10240.size a
  hwx0_2 : ∀ i : grid0.Coords, EltTy.bits .f32 = 32 ∨ (Rect.block (s := S10240x10240) S2048x2048.size (cc0_transform_2 i) (hinb0_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf

abbrev win0_0 : Pipeline.Window sig grid0 :=
  Pipeline.Window.ofSpec (Memref.whole main_v47) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x64 : Shape := ⟨2, ![10000, 64]⟩
abbrev S2x320000 : Shape := ⟨2, ![2, 320000]⟩
abbrev S64x64 : Shape := ⟨2, ![64, 64]⟩
abbrev S64 : Shape := ⟨1, ![64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x64 : Shape := ⟨2, ![330000, 64]⟩
abbrev S1x64 : Shape := ⟨2, ![1, 64]⟩
abbrev S64x10000 : Shape := ⟨2, ![64, 10000]⟩
abbrev S10000x10000 : Shape := ⟨2, ![10000, 10000]⟩

abbrev nBuf : Space → Nat
  | .hbm => 69
  | .vmem => 0
  | .smem => 0
  | _ => 0

abbrev bufTy : (tb : Table) → Fin (tcTables nBuf tb) → BufTy
  | .hbm, ⟨0, _⟩ => ⟨S10000x64, .f32⟩
  | .hbm, ⟨1, _⟩ => ⟨S2x320000, .i32⟩
  | .hbm, ⟨2, _⟩ => ⟨S64x64, .f32⟩
  | .hbm, ⟨3, _⟩ => ⟨S64, .f32⟩
  | .hbm, ⟨4, _⟩ => ⟨S10000, .i32⟩
  | .hbm, ⟨5, _⟩ => ⟨S1x320000, .i32⟩
  | .hbm, ⟨6, _⟩ => ⟨S320000, .i32⟩
  | .hbm, ⟨7, _⟩ => ⟨S330000, .i32⟩
  | .hbm, ⟨8, _⟩ => ⟨S1x320000, .i32⟩
  | .hbm, ⟨9, _⟩ => ⟨S320000, .i32⟩
  | .hbm, ⟨10, _⟩ => ⟨S330000, .i32⟩
  | .hbm, ⟨11, _⟩ => ⟨S_, .f32⟩
  | .hbm, ⟨12, _⟩ => ⟨S330000, .f32⟩
  | .hbm, ⟨13, _⟩ => ⟨S_, .f32⟩
  | .hbm, ⟨14, _⟩ => ⟨S10000, .f32⟩
  | .hbm, ⟨15, _⟩ => ⟨S330000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .i1⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S330000, .i32⟩
  | .hbm, ⟨27, _⟩ => ⟨S330000, .i1⟩
  | .hbm, ⟨28, _⟩ => ⟨S_, .i32⟩
  | .hbm, ⟨29, _⟩ => ⟨S330000, .i32⟩
  | .hbm, ⟨30, _⟩ => ⟨S330000, .i32⟩
  | .hbm, ⟨31, _⟩ => ⟨S330000, .i32⟩
  | .hbm, ⟨32, _⟩ => ⟨S330000x1, .i32⟩
  | .hbm, ⟨33, _⟩ => ⟨S330000, .f32⟩
  | .hbm, ⟨34, _⟩ => ⟨S_, .i32⟩
  | .hbm, ⟨35, _⟩ => ⟨S330000, .i32⟩
  | .hbm, ⟨36, _⟩ => ⟨S330000, .i1⟩
  | .hbm, ⟨37, _⟩ => ⟨S_, .i32⟩
  | .hbm, ⟨38, _⟩ => ⟨S330000, .i32⟩
  | .hbm, ⟨39, _⟩ => ⟨S330000, .i32⟩
  | .hbm, ⟨40, _⟩ => ⟨S330000, .i32⟩
  | .hbm, ⟨41, _⟩ => ⟨S330000x1, .i32⟩
  | .hbm, ⟨42, _⟩ => ⟨S330000, .f32⟩
  | .hbm, ⟨43, _⟩ => ⟨S330000, .f32⟩
  | .hbm, ⟨44, _⟩ => ⟨S10000x64, .f32⟩
  | .hbm, ⟨45, _⟩ => ⟨S_, .i32⟩
  | .hbm, ⟨46, _⟩ => ⟨S330000, .i32⟩
  | .hbm, ⟨47, _⟩ => ⟨S330000, .i1⟩
  | .hbm, ⟨48, _⟩ => ⟨S_, .i32⟩
  | .hbm, ⟨49, _⟩ => ⟨S330000, .i32⟩
  | .hbm, ⟨50, _⟩ => ⟨S330000, .i32⟩
  | .hbm, ⟨51, _⟩ => ⟨S330000, .i32⟩
  | .hbm, ⟨52, _⟩ => ⟨S330000x1, .i32⟩
  | .hbm, ⟨53, _⟩ => ⟨S330000x64, .f32⟩
  | .hbm, ⟨54, _⟩ => ⟨S330000x1, .f32⟩
  | .hbm, ⟨55, _⟩ => ⟨S330000x64, .f32⟩
  | .hbm, ⟨56, _⟩ => ⟨S330000x64, .f32⟩
  | .hbm, ⟨57, _⟩ => ⟨S_, .f32⟩
  | .hbm, ⟨58, _⟩ => ⟨S10000x64, .f32⟩
  | .hbm, ⟨59, _⟩ => ⟨S330000x1, .i32⟩
  | .hbm, ⟨60, _⟩ => ⟨S10000x64, .f32⟩
  | .hbm, ⟨61, _⟩ => ⟨S1x64, .f32⟩
  | .hbm, ⟨62, _⟩ => ⟨S10000x64, .f32⟩
  | .hbm, ⟨63, _⟩ => ⟨S10000x64, .f32⟩
  | .hbm, ⟨64, _⟩ => ⟨S_, .f32⟩
  | .hbm, ⟨65, _⟩ => ⟨S10000x64, .f32⟩
  | .hbm, ⟨66, _⟩ => ⟨S10000x64, .f32⟩
  | .hbm, ⟨67, _⟩ => ⟨S64x10000, .f32⟩
  | .hbm, ⟨68, _⟩ => ⟨S10000x10000, .f32⟩
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S10000x64_S64x10000_1_0 : S10000x64.Transposes [1, 0] S64x10000
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x64_S64x64_S10000x64_1_0_0_1_n_n_wf : DotDims.WF S10000x64 S64x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x10000_S10000x10000_1_0_0_1_n_n_wf : DotDims.WF S10000x64 S64x10000 S10000x10000 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.K.Host.lean ====
/-
  The contents of a core's HBM buffers between the items of @main: the launch contents, then each stretch of host
  operations applied in order (the edge lists, the degree normalisation, the feature product, the gather and the
  scatter-add, the bias, the zero padding to 10240 rows), then the one kernel region, which may change only its
  result array, then the last host operation, the slice back to 10000 x 10000. Which references each stretch
  writes is listed, so that a reference no item writes - each argument of @main - is read back as launched.
-/
import proofs.«139293_j23871428231492_1_alg».proof.Proof.Gen.Kernel.Launch
import Idealize.ShloMosaic.Lib.Pipeline.Frame
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the kernel region leaves in its result array, per core: a parameter of the valuations after it. -/
abbrev Out : Type := (c : Dev nD) → Buf (Elt F) ((c : Thread nD τ).loc main_v48)

variable (m : (ℓ : Loc nD τ sig) → Buf (Elt F) ℓ) (o : Out (F := F))

/-- Core `c`'s HBM buffers at launch, -/
abbrev V0 (c : Dev nD) : Valuation τ sig (Elt F) := fun b => m (c, b)
/-- after the first stretch (edge lists with self loops, the degrees and their inverse square roots), -/
abbrev V1 (c : Dev nD) : Valuation τ sig (Elt F) := StableHlo.after hostOps0 (V0 m c)
/-- after the outlined `where` (the normalisation of isolated nodes), -/
abbrev V2 (c : Dev nD) : Valuation τ sig (Elt F) := StableHlo.after hostOps0_1 (V1 m c)
/-- after the aggregation (gathers, the feature product, the scatter-add, the bias), -/
abbrev V3 (c : Dev nD) : Valuation τ sig (Elt F) := StableHlo.after hostOps0_2 (V2 m c)
/-- after the outlined `pad`: the state the kernel region is entered from, -/
abbrev V4 (c : Dev nD) : Valuation τ sig (Elt F) := StableHlo.after hostOps0_3 (V3 m c)
/-- after the kernel region, which may change its result array only, -/
abbrev V5 (c : Dev nD) : Valuation τ sig (Elt F) := Function.update (V4 m c) main_v48 (o c)
/-- and after the closing slice: the final state. -/
abbrev V6 (c : Dev nD) : Valuation τ sig (Elt F) := StableHlo.after hostOps1 (V5 m o c)

/-! ## What each stretch writes -/

theorem hostOps0_fresh : (hostOps0 : List (HloOp τ sig (Elt F))).Forall fun op => op.fresh = ∅ := by
  simp only [List.Forall]; repeat' constructor
/-- The references the stretch `hostOps0` writes, in program order. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_1_fresh : (hostOps0_1 : List (HloOp τ sig (Elt F))).Forall fun op => op.fresh = ∅ := by
  simp only [List.Forall]; repeat' constructor
/-- The references the stretch `hostOps0_1` writes, in program order. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_2_fresh : (hostOps0_2 : List (HloOp τ sig (Elt F))).Forall fun op => op.fresh = ∅ := by
  simp only [List.Forall]; repeat' constructor
/-- The references the stretch `hostOps0_2` writes, in program order. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_c_9]
theorem hostOps0_2_writes : (hostOps0_2 : List (HloOp τ sig (Elt F))).Forall fun op => op.writes ⊆ (hostOps0_2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_3_fresh : (hostOps0_3 : List (HloOp τ sig (Elt F))).Forall fun op => op.fresh = ∅ := by
  simp only [List.Forall]; repeat' constructor
/-- The references the stretch `hostOps0_3` writes, in program order. -/
abbrev hostOps0_3_W : List (Ref sig .tc) := [main_call1_v0, main_v47]
theorem hostOps0_3_writes : (hostOps0_3 : List (HloOp τ sig (Elt F))).Forall fun op => op.writes ⊆ (hostOps0_3_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
/-- The references the stretch `hostOps1` writes, in program order. -/
abbrev hostOps1_W : List (Ref sig .tc) := [main_v49]
theorem hostOps1_writes : (hostOps1 : List (HloOp τ sig (Elt F))).Forall fun op => op.writes ⊆ (hostOps1_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ hostOps0_3_W) : V4 m c r = V3 m c r :=
  StableHlo.after_of_writes_sub hostOps0_3 _ hostOps0_3_writes h
theorem V5_of (c : Dev nD) (r : Ref sig .tc) (h : r ∉ ([main_v48] : List (Ref sig .tc))) : V5 m o c r = V4 m c r := by
  simp only [V5, Function.update_of_ne (StableHlo.devRef_ne_of_ne (List.ne_of_not_mem_cons h) : (Proc.devRef .tc r : DevRef τ sig) ≠ Proc.devRef .tc main_v48)]
theorem V6_of (c : Dev nD) (r : Ref sig .tc) (h : r ∉ hostOps1_W) : V6 m o c r = V5 m o c r :=
  StableHlo.after_of_writes_sub hostOps1 _ hostOps1_writes h

/-- The region's result array after the region is what the region left. -/
theorem V5_main_v48 (c : Dev nD) : V5 m o c main_v48 = o c := by
  simp only [V5, Function.update_self]

/-! ## No item writes an argument -/

theorem V6_main_arg0 (c : Dev nD) : V6 m o c main_arg0 = m ((c : Thread nD τ).loc main_arg0) :=
  (V6_of m o c main_arg0 (by decide)).trans <| (V5_of m o c main_arg0 (by decide)).trans <| (V4_of m c main_arg0 (by decide)).trans <|
    (V3_of m c main_arg0 (by decide)).trans <| (V2_of m c main_arg0 (by decide)).trans <| (V1_of m c main_arg0 (by decide)).trans rfl
theorem V6_main_arg1 (c : Dev nD) : V6 m o c main_arg1 = m ((c : Thread nD τ).loc main_arg1) :=
  (V6_of m o c main_arg1 (by decide)).trans <| (V5_of m o c main_arg1 (by decide)).trans <| (V4_of m c main_arg1 (by decide)).trans <|
    (V3_of m c main_arg1 (by decide)).trans <| (V2_of m c main_arg1 (by decide)).trans <| (V1_of m c main_arg1 (by decide)).trans rfl
theorem V6_main_arg2 (c : Dev nD) : V6 m o c main_arg2 = m ((c : Thread nD τ).loc main_arg2) :=
  (V6_of m o c main_arg2 (by decide)).trans <| (V5_of m o c main_arg2 (by decide)).trans <| (V4_of m c main_arg2 (by decide)).trans <|
    (V3_of m c main_arg2 (by decide)).trans <| (V2_of m c main_arg2 (by decide)).trans <| (V1_of m c main_arg2 (by decide)).trans rfl
theorem V6_main_arg3 (c : Dev nD) : V6 m o c main_arg3 = m ((c : Thread nD τ).loc main_arg3) :=
  (V6_of m o c main_arg3 (by decide)).trans <| (V5_of m o c main_arg3 (by decide)).trans <| (V4_of m c main_arg3 (by decide)).trans <|
    (V3_of m c main_arg3 (by decide)).trans <| (V2_of m c main_arg3 (by decide)).trans <| (V1_of m c main_arg3 (by decide)).trans rfl

end Cert.Kernel.Hand

end
-- ==== Proof.K.Body.lean ====
/-
  The kernel body at one grid point: it loads a block of 2048 rows through each of its two input windows, rectifies
  both, and stores the product of the first with the transpose of the second over the whole 2048 x 2048 output
  block. What the output window's buffer holds afterwards is that one store's value, a function of the two loaded
  blocks alone.
-/
import proofs.«139293_j23871428231492_1_alg».proof.Proof.Gen.Kernel.Launch
import proofs.«139293_j23871428231492_1_alg».proof.Proof.Gen.Kernel.Skeleton
import proofs.«139293_j23871428231492_1_alg».proof.Proof.Gen.Kernel.Points
import Idealize.ShloMosaic.Lib.Pipeline.FrameBody
import Idealize.ShloMosaic.Lib.Ring
import Idealize.ShloMosaic.Lib.Tactic

noncomputable section

set_option maxRecDepth 16384

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block, as a rectangle of the staging buffer. -/
abbrev rIn : Rect S2048x64 := Rect.unit (s := S2048x64) ![0, 0] S2048x64.size inb_S2048x64_S2048x64_0_0
/-- The whole output block. -/
abbrev rOut : Rect S2048x2048 := Rect.unit (s := S2048x2048) ![0, 0] S2048x2048.size inb_S2048x2048_S2048x2048_0_0

/-- The output window's buffer after the body, from the two input blocks: its one store. -/
def outBlk (x0 : Vec F S2048x64 .f32) (x1 : Vec F S2048x64 .f32) : Vec F S2048x2048 .f32 :=
  View.canon [⟨rOut, k0_pay1 (View.ld x0 rIn) (View.ld x1 rIn)⟩]

/-- The one store covers the buffer. -/
theorem cover_out (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging memrefs, the inputs' at read contents `x0`, `x1` and the output's at anything, runs to
    the continuation holding the inputs' as they were and the output's at `outBlk x0 x1`. -/
theorem sound_kernel (c : Dev nD) (E : Set ℕ) (i : grid0.Coords) (arg2 : Memref sig .tc .vmem S2048x64 .f32) (harg2 : arg2.IsWhole) (arg3 : Memref sig .tc .vmem S2048x64 .f32) (harg3 : arg3.IsWhole) (arg4 : Memref sig .tc .vmem S2048x2048 .f32) (harg4 : arg4.IsWhole)
    (x0 : Vec F S2048x64 .f32) (x1 : Vec F S2048x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__relu_matmul_kernel i arg2 harg2 arg3 harg3 arg4 harg4) K := by
  simp only [cc0__relu_matmul_kernel_eq_skeleton]; unfold cc0__relu_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.Kernel.Hand

end
-- ==== Proof.K.Data.lean ====
/-
  The pipeline's proof data on a core. The region is entered with the padded aggregate in `main_v47`, which BOTH
  input windows read (the first by the row tile of the grid point, the second by its column tile), so each window
  holds half of that array's share; the output window owns the result array `main_v48`. After the body at a
  point each input's buffer still holds its block and the output's buffer holds the product of the rectified
  blocks. The body obligation is the body's triple at every point.
-/
import proofs.«139293_j23871428231492_1_alg».proof.Proof.K.Host
import proofs.«139293_j23871428231492_1_alg».proof.Proof.K.Body

noncomputable section

set_option maxRecDepth 16384

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered, as contents of references. -/
abbrev Vin (c : Dev nD) (b : Ref sig .tc) : Buf (Elt F) ((c : Thread nD τ).loc b) := V4 m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vin m c (Pipeline.arrRef spec0 w))

/-- The proof data of the one pipeline on core `c`. -/
def dats (_ : Fin 1) (c : Dev nD) : Dat τ (Elt F) Unit ℕ (UR sig nD τ) ℕ cfg0 c where
  A w := Vin m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = Vin m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlk (iblk m c 0 t) (iblk m c 1 t) := by dsimp only [dats]

/-- Each input's current staging buffer holds its block at every point, fetched there or not: the block index of a
    window that is not fetched has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The launch. @main is four stretches of host operations, the one kernel region, and the closing slice. Between two
  items a core holds every HBM buffer whole at the contents computed so far. At the region's entry the padded
  aggregate `main_v47`, which both input windows read, is dealt to them in two halves of its share, and the result
  array goes to the output window whole; at the exit the halves are joined again (an input array is never
  written), and the result array is held at what the write-backs left. Every weakly fair execution therefore
  terminates with the arguments as launched and the result the slice of the region's result array.
-/
import proofs.«139293_j23871428231492_1_alg».proof.Proof.K.Data

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- The pipeline prefetches no table. -/
abbrev adm : (p : Fin 1) → (pcfgs (F := F) p).Adm := fun p => (cfgs p).toPCfg_adm
abbrev 𝒱₀ : Variants := Variants.none

/-- What rides beside the buffers: the core owes nothing. -/
abbrev R (c : Dev nD) : sProp 𝕄 := iprop(∃ W, owes (c : Thread nD τ) (0 : CellTallies nD τ sig Unit) W)

/-- What the region leaves in its result array: the proof data's array after the last write-back. -/
abbrev regionOut : Out (F := F) := fun c => (dats m 0 c).arrAt 2 cfg0.N

/-! ## The arrays' shares at the region's two ends -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl

/-- The buffers behind the windows' arrays are the padded aggregate and the result array. -/
theorem arrRefs_eq : Finset.univ.image (Pipeline.arrRef spec0) = ([main_v47, main_v48] : List (Ref sig .tc)).toFinset := by decide

/-- The buffers behind the windows' arrays, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v47) ↦{fullShare} W main_v47) ∗ (((c.tc : Thread nD τ).loc main_v48) ↦{fullShare} W main_v48)) :=
  bigSep_eq_bigSepL_of_eq [main_v47, main_v48] arrRefs_eq (by decide) _

/-- ENTRY: the two buffers, whole, make the windows' arrays: the aggregate's share split between the input windows. -/
theorem arrays_in (c : Dev nD) (G : (w : Fin cfg0.W) → Buf (Elt F) ((cfg0.win w).arr.view.loc (c.tc : Thread nD τ)))
    (W : (b : Ref sig .tc) → Buf (Elt F) ((c.tc : Thread nD τ).loc b))
    (h0 : G 0 = W main_v47) (h1 : G 1 = W main_v47) (h2 : G 2 = W main_v48) :
    (Pipeline.arrBufs spec0 c W : sProp 𝕄) ⊢ (dats m 0 c).arrays G := by
  rw [arrBufs_eq]
  unfold Dat.arrays
  rw [bigSep_W0]
  rw [(arr_whole0 0).set_eq_univ, (arr_whole0 2).set_eq_univ, share_0, share_1, share_2, h0, h1, h2]
  iintro ⟨H47, H48⟩
  ihave H := (pointsTo_share (PosShare.mem_left_op_right fullShare)).1 $$ H47
  icases H with ⟨Hl, Hr⟩
  isplitl [Hl]; · iexact Hl
  isplitl [Hr]; · iexact Hr
  iexact H48

/-- EXIT: the windows' arrays make the two buffers whole again: the halves of the aggregate's share joined. -/
theorem arrays_out (c : Dev nD) (G : (w : Fin cfg0.W) → Buf (Elt F) ((cfg0.win w).arr.view.loc (c.tc : Thread nD τ)))
    (W : (b : Ref sig .tc) → Buf (Elt F) ((c.tc : Thread nD τ).loc b))
    (h0 : G 0 = W main_v47) (h1 : G 1 = W main_v47) (h2 : G 2 = W main_v48) :
    (dats m 0 c).arrays G ⊢ (Pipeline.arrBufs spec0 c W : sProp 𝕄) := by
  rw [arrBufs_eq]
  unfold Dat.arrays
  rw [bigSep_W0]
  rw [(arr_whole0 0).set_eq_univ, (arr_whole0 2).set_eq_univ, share_0, share_1, share_2, h0, h1, h2]
  iintro ⟨Hl, Hr, H48⟩
  isplitl [Hl Hr]
  · iapply (pointsTo_share (PosShare.mem_left_op_right fullShare)).2
    isplitl [Hl]; · iexact Hl
    iexact Hr
  iexact H48

/-! ## The host stretches as segments -/

/-- A stretch of host operations over every HBM buffer from a valuation, the core's dues riding along. -/
def hostSeg (ops : List (HloOp τ sig (Elt F))) (hsub : ops.Forall fun op => op.bufs ⊆ StableHlo.tcRefs τ sig)
    (hfresh : ops.Forall fun op => op.fresh = ∅) (V : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) V R

/-! ## The kernel region as a segment -/

/-- The region's buffers on entry are the windows' arrays and the rest. -/
theorem entry_split (c : Dev nD) :
    (StableHlo.held (c : Thread nD τ) (Pipeline.ucRefs τ sig) (V4 m c) : sProp 𝕄)
      ⊢ iprop((dats m 0 c).arrays ((dats m 0 c).arrAt · 0) ∗ Pipeline.unscopedRest spec0 c (Vin m c)) := by
  rw [show StableHlo.held (c : Thread nD τ) (Pipeline.ucRefs τ sig) (V4 m c) = unscopedBufs c (Vin m c) from (Pipeline.unscopedBufs_held c _).symm,
    Pipeline.unscopedBufs_split₀ cfgs 0 winFacts₀0.arr_unscoped c (Vin m c)]
  exact sep_mono (arrays_in m c _ (Vin m c) (A_eq m c 0) (A_eq m c 1) (A_eq m c 2)) .rfl

/-- The buffers no window reads or writes, at two valuations that agree off the result array, are the same assertion. -/
theorem unscopedRest_congr (c : Dev nD) (W W' : (b : Ref sig .tc) → Buf (Elt F) ((c.tc : Thread nD τ).loc b))
    (h : ∀ b : Ref sig .tc, b ≠ main_v48 → W b = W' b) :
    (Pipeline.unscopedRest spec0 c W : sProp 𝕄) = Pipeline.unscopedRest spec0 c W' := by
  unfold Pipeline.unscopedRest
  refine bigSep_congr fun b hb => ?_
  have hb' : b ∉ Finset.univ.image (Pipeline.arrRef spec0) := (Finset.mem_sdiff.mp hb).2
  have h48 : b ≠ main_v48 := fun e => hb' (e ▸ Finset.mem_image.mpr ⟨2, Finset.mem_univ _, (by decide : Pipeline.arrRef spec0 2 = main_v48)⟩)
  rw [h b h48]

/-- The buffers no window reads or writes are as they were when the region is left. -/
theorem rest_eq (c : Dev nD) :
    (Pipeline.unscopedRest spec0 c (Vin m c) : sProp 𝕄) = Pipeline.unscopedRest spec0 c (fun b => V5 m (regionOut m) c b) :=
  unscopedRest_congr c _ _ fun b h48 => (V5_of m (regionOut m) c b (by simpa using h48)).symm

/-- The windows' arrays at the region's exit and the rest are every HBM buffer at the valuation after the region. -/
theorem exit_join (c : Dev nD) :
    iprop((dats m 0 c).arrays ((dats m 0 c).arrAt · cfg0.N) ∗ Pipeline.unscopedRest spec0 c (Vin m c))
      ⊢ (StableHlo.held (c : Thread nD τ) (Pipeline.ucRefs τ sig) (V5 m (regionOut m) c) : sProp 𝕄) := by
  rw [show StableHlo.held (c : Thread nD τ) (Pipeline.ucRefs τ sig) (V5 m (regionOut m) c) = unscopedBufs c (fun b => V5 m (regionOut m) c b) from (Pipeline.unscopedBufs_held c _).symm,
    Pipeline.unscopedBufs_split₀ cfgs 0 winFacts₀0.arr_unscoped c (fun b => V5 m (regionOut m) c b), rest_eq]
  refine sep_mono (arrays_out m c _ (fun b => V5 m (regionOut m) c b) ?_ ?_ ?_) .rfl
  · exact ((dats m 0 c).arrAt_in 0 rfl _).trans ((A_eq m c 0).trans (V5_of m (regionOut m) c main_v47 (by decide)).symm)
  · exact ((dats m 0 c).arrAt_in 1 rfl _).trans ((A_eq m c 1).trans (V5_of m (regionOut m) c main_v47 (by decide)).symm)
  · exact (V5_main_v48 m (regionOut m) c).symm

set_option backward.isDefEq.respectTransparency.types false in
/-- THE REGION: entered from every buffer at the valuation the host stretches left, left with the result array at
    what the write-backs made of it and every other buffer as it was. -/
def reg0 : RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (regionOut m) c) ∗ R c)
  X c := iprop(emp)
  Y c := iprop(emp)
  Z c := Pipeline.unscopedRest spec0 c (Vin m c)
  hentry c := by
    iintro ⟨⟨Hh, HO⟩, -, -⟩
    ihave H := (entry_split m c) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    imodintro
    isplitr [HO]
    · iapply (exit_join m c)
      isplitl [Ha]; · iexact Ha
      iexact HZ
    · unfold Pipeline.Dat.owesAt Pipeline.owesWithin
      icases HO with ⟨%W, -, HO⟩; iexists W; iexact HO

/-- @main as the list of its segments. -/
abbrev segs : List (Seg (pcfgs (F := F)) adm (dats m) () defs₀ 𝒱₀ L lv) :=
  [.host (hostSeg hostOps0 hostOps0_sub hostOps0_fresh (V0 m)),
   .host (hostSeg hostOps0_1 hostOps0_1_sub hostOps0_1_fresh (V1 m)),
   .host (hostSeg hostOps0_2 hostOps0_2_sub hostOps0_2_fresh (V2 m)),
   .host (hostSeg hostOps0_3 hostOps0_3_sub hostOps0_3_fresh (V3 m)),
   .region (reg0 m),
   .host (hostSeg hostOps1 hostOps1_sub hostOps1_fresh (V5 m (regionOut m)))]

set_option backward.isDefEq.respectTransparency.types false in
/-- From any memory with zero counters every weakly fair execution of @main terminates, and every final state has the
    result at the slice of the region's result array and each argument as launched. -/
theorem run_main : θ_run defs (onTc (τ := τ) (main (F := F))) ⟨m, fun _ => 0, ρ⟩ (fun r => ∀ c : Dev nD,
      r.2.mem ((c.tc : Thread nD τ).loc main_v49) = V6 m (regionOut m) c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit (pcfgs (F := F)) adm (dats m) () cellOf_inj emb₁ defs₀ 𝒱₀ L lv m ρ main (segs m)
    (fun c Q => by
      rewrite [main_chain c, Seg.run_eq_chain,
        show (segs m).map Seg.prog = [
          StableHlo.seq hostOps0, StableHlo.seq hostOps0_1, StableHlo.seq hostOps0_2, StableHlo.seq hostOps0_3,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m (regionOut m) c))
    (hch := ⟨fun _ => .rfl, fun _ => .rfl, fun _ => .rfl, fun _ => .rfl, fun _ => .rfl, fun _ => .rfl, fun _ => .rfl⟩)
    (hinit := ?_)
    (QY := fun c s => s.mem ((c.tc : Thread nD τ).loc main_v49) = V6 m (regionOut m) c main_v49
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch: every HBM buffer is held at the launch contents; the core owes nothing
    refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (V6 m (regionOut m) c) s') $$ [Hh HSI]
    · isplitl [Hh] <;> iassumption
    icases Hr with ⟨%h, HSI⟩
    imodintro
    isplitr
    · ipureintro
      have hmem : ∀ r : Ref sig .tc, (decide (r.isScoped = false) = true) → (Proc.devRef .tc r : DevRef τ sig) ∈ Pipeline.ucRefs τ sig :=
        fun r hr => Finset.mem_filter.mpr ⟨StableHlo.devRef_mem_tcRefs r, by simpa using hr⟩
      exact ⟨h (Proc.devRef .tc main_v49) (hmem main_v49 (by decide)),
        (h (Proc.devRef .tc main_arg0) (hmem main_arg0 (by decide))).trans (V6_main_arg0 m (regionOut m) c),
        (h (Proc.devRef .tc main_arg1) (hmem main_arg1 (by decide))).trans (V6_main_arg1 m (regionOut m) c),
        (h (Proc.devRef .tc main_arg2) (hmem main_arg2 (by decide))).trans (V6_main_arg2 m (regionOut m) c),
        (h (Proc.devRef .tc main_arg3) (hmem main_arg3 (by decide))).trans (V6_main_arg3 m (regionOut m) c)⟩
    · iexact HSI

end Cert.Kernel.Hand

end
-- ==== Proof.KI.Host.lean ====
/-
  The contents of a core's HBM buffers between the items of @main: the launch contents, then each stretch of host
  operations applied in order (the edge lists, the degree normalisation, the feature product, the gather and the
  scatter-add, the bias, the zero padding to 10240 rows), then the one kernel region, which may change only its
  result array, then the last host operation, the slice back to 10000 x 10000. Which references each stretch
  writes is listed, so that a reference no item writes - each argument of @main - is read back as launched.
-/
import proofs.«139293_j23871428231492_1_alg».proof.Proof.Gen.KernelIdeal.Launch
import Idealize.ShloMosaic.Lib.Pipeline.Frame
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the kernel region leaves in its result array, per core: a parameter of the valuations after it. -/
abbrev Out : Type := (c : Dev nD) → Buf (Elt F) ((c : Thread nD τ).loc main_v48)

variable (m : (ℓ : Loc nD τ sig) → Buf (Elt F) ℓ) (o : Out (F := F))

/-- Core `c`'s HBM buffers at launch, -/
abbrev V0 (c : Dev nD) : Valuation τ sig (Elt F) := fun b => m (c, b)
/-- after the first stretch (edge lists with self loops, the degrees and their inverse square roots), -/
abbrev V1 (c : Dev nD) : Valuation τ sig (Elt F) := StableHlo.after hostOps0 (V0 m c)
/-- after the outlined `where` (the normalisation of isolated nodes), -/
abbrev V2 (c : Dev nD) : Valuation τ sig (Elt F) := StableHlo.after hostOps0_1 (V1 m c)
/-- after the aggregation (gathers, the feature product, the scatter-add, the bias), -/
abbrev V3 (c : Dev nD) : Valuation τ sig (Elt F) := StableHlo.after hostOps0_2 (V2 m c)
/-- after the outlined `pad`: the state the kernel region is entered from, -/
abbrev V4 (c : Dev nD) : Valuation τ sig (Elt F) := StableHlo.after hostOps0_3 (V3 m c)
/-- after the kernel region, which may change its result array only, -/
abbrev V5 (c : Dev nD) : Valuation τ sig (Elt F) := Function.update (V4 m c) main_v48 (o c)
/-- and after the closing slice: the final state. -/
abbrev V6 (c : Dev nD) : Valuation τ sig (Elt F) := StableHlo.after hostOps1 (V5 m o c)

/-! ## What each stretch writes -/

theorem hostOps0_fresh : (hostOps0 : List (HloOp τ sig (Elt F))).Forall fun op => op.fresh = ∅ := by
  simp only [List.Forall]; repeat' constructor
/-- The references the stretch `hostOps0` writes, in program order. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_1_fresh : (hostOps0_1 : List (HloOp τ sig (Elt F))).Forall fun op => op.fresh = ∅ := by
  simp only [List.Forall]; repeat' constructor
/-- The references the stretch `hostOps0_1` writes, in program order. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_2_fresh : (hostOps0_2 : List (HloOp τ sig (Elt F))).Forall fun op => op.fresh = ∅ := by
  simp only [List.Forall]; repeat' constructor
/-- The references the stretch `hostOps0_2` writes, in program order. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_c_9]
theorem hostOps0_2_writes : (hostOps0_2 : List (HloOp τ sig (Elt F))).Forall fun op => op.writes ⊆ (hostOps0_2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_3_fresh : (hostOps0_3 : List (HloOp τ sig (Elt F))).Forall fun op => op.fresh = ∅ := by
  simp only [List.Forall]; repeat' constructor
/-- The references the stretch `hostOps0_3` writes, in program order. -/
abbrev hostOps0_3_W : List (Ref sig .tc) := [main_call1_v0, main_v47]
theorem hostOps0_3_writes : (hostOps0_3 : List (HloOp τ sig (Elt F))).Forall fun op => op.writes ⊆ (hostOps0_3_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
/-- The references the stretch `hostOps1` writes, in program order. -/
abbrev hostOps1_W : List (Ref sig .tc) := [main_v49]
theorem hostOps1_writes : (hostOps1 : List (HloOp τ sig (Elt F))).Forall fun op => op.writes ⊆ (hostOps1_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ hostOps0_3_W) : V4 m c r = V3 m c r :=
  StableHlo.after_of_writes_sub hostOps0_3 _ hostOps0_3_writes h
theorem V5_of (c : Dev nD) (r : Ref sig .tc) (h : r ∉ ([main_v48] : List (Ref sig .tc))) : V5 m o c r = V4 m c r := by
  simp only [V5, Function.update_of_ne (StableHlo.devRef_ne_of_ne (List.ne_of_not_mem_cons h) : (Proc.devRef .tc r : DevRef τ sig) ≠ Proc.devRef .tc main_v48)]
theorem V6_of (c : Dev nD) (r : Ref sig .tc) (h : r ∉ hostOps1_W) : V6 m o c r = V5 m o c r :=
  StableHlo.after_of_writes_sub hostOps1 _ hostOps1_writes h

/-- The region's result array after the region is what the region left. -/
theorem V5_main_v48 (c : Dev nD) : V5 m o c main_v48 = o c := by
  simp only [V5, Function.update_self]

/-! ## No item writes an argument -/

theorem V6_main_arg0 (c : Dev nD) : V6 m o c main_arg0 = m ((c : Thread nD τ).loc main_arg0) :=
  (V6_of m o c main_arg0 (by decide)).trans <| (V5_of m o c main_arg0 (by decide)).trans <| (V4_of m c main_arg0 (by decide)).trans <|
    (V3_of m c main_arg0 (by decide)).trans <| (V2_of m c main_arg0 (by decide)).trans <| (V1_of m c main_arg0 (by decide)).trans rfl
theorem V6_main_arg1 (c : Dev nD) : V6 m o c main_arg1 = m ((c : Thread nD τ).loc main_arg1) :=
  (V6_of m o c main_arg1 (by decide)).trans <| (V5_of m o c main_arg1 (by decide)).trans <| (V4_of m c main_arg1 (by decide)).trans <|
    (V3_of m c main_arg1 (by decide)).trans <| (V2_of m c main_arg1 (by decide)).trans <| (V1_of m c main_arg1 (by decide)).trans rfl
theorem V6_main_arg2 (c : Dev nD) : V6 m o c main_arg2 = m ((c : Thread nD τ).loc main_arg2) :=
  (V6_of m o c main_arg2 (by decide)).trans <| (V5_of m o c main_arg2 (by decide)).trans <| (V4_of m c main_arg2 (by decide)).trans <|
    (V3_of m c main_arg2 (by decide)).trans <| (V2_of m c main_arg2 (by decide)).trans <| (V1_of m c main_arg2 (by decide)).trans rfl
theorem V6_main_arg3 (c : Dev nD) : V6 m o c main_arg3 = m ((c : Thread nD τ).loc main_arg3) :=
  (V6_of m o c main_arg3 (by decide)).trans <| (V5_of m o c main_arg3 (by decide)).trans <| (V4_of m c main_arg3 (by decide)).trans <|
    (V3_of m c main_arg3 (by decide)).trans <| (V2_of m c main_arg3 (by decide)).trans <| (V1_of m c main_arg3 (by decide)).trans rfl

end Cert.KernelIdeal.Hand

end
-- ==== Proof.KI.Body.lean ====
/-
  The kernel body at one grid point: it loads a block of 2048 rows through each of its two input windows, rectifies
  both, and stores the product of the first with the transpose of the second over the whole 2048 x 2048 output
  block. What the output window's buffer holds afterwards is that one store's value, a function of the two loaded
  blocks alone.
-/
import proofs.«139293_j23871428231492_1_alg».proof.Proof.Gen.KernelIdeal.Launch
import proofs.«139293_j23871428231492_1_alg».proof.Proof.Gen.KernelIdeal.Skeleton
import proofs.«139293_j23871428231492_1_alg».proof.Proof.Gen.KernelIdeal.Points
import Idealize.ShloMosaic.Lib.Pipeline.FrameBody
import Idealize.ShloMosaic.Lib.Ring
import Idealize.ShloMosaic.Lib.Tactic

noncomputable section

set_option maxRecDepth 16384

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block, as a rectangle of the staging buffer. -/
abbrev rIn : Rect S2048x64 := Rect.unit (s := S2048x64) ![0, 0] S2048x64.size inb_S2048x64_S2048x64_0_0
/-- The whole output block. -/
abbrev rOut : Rect S2048x2048 := Rect.unit (s := S2048x2048) ![0, 0] S2048x2048.size inb_S2048x2048_S2048x2048_0_0

/-- The output window's buffer after the body, from the two input blocks: its one store. -/
def outBlk (x0 : Vec F S2048x64 .f32) (x1 : Vec F S2048x64 .f32) : Vec F S2048x2048 .f32 :=
  View.canon [⟨rOut, k0_pay1 (View.ld x0 rIn) (View.ld x1 rIn)⟩]

/-- The one store covers the buffer. -/
theorem cover_out (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging memrefs, the inputs' at read contents `x0`, `x1` and the output's at anything, runs to
    the continuation holding the inputs' as they were and the output's at `outBlk x0 x1`. -/
theorem sound_kernel (c : Dev nD) (E : Set ℕ) (i : grid0.Coords) (arg2 : Memref sig .tc .vmem S2048x64 .f32) (harg2 : arg2.IsWhole) (arg3 : Memref sig .tc .vmem S2048x64 .f32) (harg3 : arg3.IsWhole) (arg4 : Memref sig .tc .vmem S2048x2048 .f32) (harg4 : arg4.IsWhole)
    (x0 : Vec F S2048x64 .f32) (x1 : Vec F S2048x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__relu_matmul_kernel i arg2 harg2 arg3 harg3 arg4 harg4) K := by
  simp only [cc0__relu_matmul_kernel_eq_skeleton]; unfold cc0__relu_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.KernelIdeal.Hand

end
-- ==== Proof.KI.Data.lean ====
/-
  The pipeline's proof data on a core. The region is entered with the padded aggregate in `main_v47`, which BOTH
  input windows read (the first by the row tile of the grid point, the second by its column tile), so each window
  holds half of that array's share; the output window owns the result array `main_v48`. After the body at a
  point each input's buffer still holds its block and the output's buffer holds the product of the rectified
  blocks. The body obligation is the body's triple at every point.
-/
import proofs.«139293_j23871428231492_1_alg».proof.Proof.KI.Host
import proofs.«139293_j23871428231492_1_alg».proof.Proof.KI.Body

noncomputable section

set_option maxRecDepth 16384

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered, as contents of references. -/
abbrev Vin (c : Dev nD) (b : Ref sig .tc) : Buf (Elt F) ((c : Thread nD τ).loc b) := V4 m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vin m c (Pipeline.arrRef spec0 w))

/-- The proof data of the one pipeline on core `c`. -/
def dats (_ : Fin 1) (c : Dev nD) : Dat τ (Elt F) Unit ℕ (UR sig nD τ) ℕ cfg0 c where
  A w := Vin m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = Vin m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlk (iblk m c 0 t) (iblk m c 1 t) := by dsimp only [dats]

/-- Each input's current staging buffer holds its block at every point, fetched there or not: the block index of a
    window that is not fetched has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The launch. @main is four stretches of host operations, the one kernel region, and the closing slice. Between two
  items a core holds every HBM buffer whole at the contents computed so far. At the region's entry the padded
  aggregate `main_v47`, which both input windows read, is dealt to them in two halves of its share, and the result
  array goes to the output window whole; at the exit the halves are joined again (an input array is never
  written), and the result array is held at what the write-backs left. Every weakly fair execution therefore
  terminates with the arguments as launched and the result the slice of the region's result array.
-/
import proofs.«139293_j23871428231492_1_alg».proof.Proof.KI.Data

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- The pipeline prefetches no table. -/
abbrev adm : (p : Fin 1) → (pcfgs (F := F) p).Adm := fun p => (cfgs p).toPCfg_adm
abbrev 𝒱₀ : Variants := Variants.none

/-- What rides beside the buffers: the core owes nothing. -/
abbrev R (c : Dev nD) : sProp 𝕄 := iprop(∃ W, owes (c : Thread nD τ) (0 : CellTallies nD τ sig Unit) W)

/-- What the region leaves in its result array: the proof data's array after the last write-back. -/
abbrev regionOut : Out (F := F) := fun c => (dats m 0 c).arrAt 2 cfg0.N

/-! ## The arrays' shares at the region's two ends -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl

/-- The buffers behind the windows' arrays are the padded aggregate and the result array. -/
theorem arrRefs_eq : Finset.univ.image (Pipeline.arrRef spec0) = ([main_v47, main_v48] : List (Ref sig .tc)).toFinset := by decide

/-- The buffers behind the windows' arrays, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v47) ↦{fullShare} W main_v47) ∗ (((c.tc : Thread nD τ).loc main_v48) ↦{fullShare} W main_v48)) :=
  bigSep_eq_bigSepL_of_eq [main_v47, main_v48] arrRefs_eq (by decide) _

/-- ENTRY: the two buffers, whole, make the windows' arrays: the aggregate's share split between the input windows. -/
theorem arrays_in (c : Dev nD) (G : (w : Fin cfg0.W) → Buf (Elt F) ((cfg0.win w).arr.view.loc (c.tc : Thread nD τ)))
    (W : (b : Ref sig .tc) → Buf (Elt F) ((c.tc : Thread nD τ).loc b))
    (h0 : G 0 = W main_v47) (h1 : G 1 = W main_v47) (h2 : G 2 = W main_v48) :
    (Pipeline.arrBufs spec0 c W : sProp 𝕄) ⊢ (dats m 0 c).arrays G := by
  rw [arrBufs_eq]
  unfold Dat.arrays
  rw [bigSep_W0]
  rw [(arr_whole0 0).set_eq_univ, (arr_whole0 2).set_eq_univ, share_0, share_1, share_2, h0, h1, h2]
  iintro ⟨H47, H48⟩
  ihave H := (pointsTo_share (PosShare.mem_left_op_right fullShare)).1 $$ H47
  icases H with ⟨Hl, Hr⟩
  isplitl [Hl]; · iexact Hl
  isplitl [Hr]; · iexact Hr
  iexact H48

/-- EXIT: the windows' arrays make the two buffers whole again: the halves of the aggregate's share joined. -/
theorem arrays_out (c : Dev nD) (G : (w : Fin cfg0.W) → Buf (Elt F) ((cfg0.win w).arr.view.loc (c.tc : Thread nD τ)))
    (W : (b : Ref sig .tc) → Buf (Elt F) ((c.tc : Thread nD τ).loc b))
    (h0 : G 0 = W main_v47) (h1 : G 1 = W main_v47) (h2 : G 2 = W main_v48) :
    (dats m 0 c).arrays G ⊢ (Pipeline.arrBufs spec0 c W : sProp 𝕄) := by
  rw [arrBufs_eq]
  unfold Dat.arrays
  rw [bigSep_W0]
  rw [(arr_whole0 0).set_eq_univ, (arr_whole0 2).set_eq_univ, share_0, share_1, share_2, h0, h1, h2]
  iintro ⟨Hl, Hr, H48⟩
  isplitl [Hl Hr]
  · iapply (pointsTo_share (PosShare.mem_left_op_right fullShare)).2
    isplitl [Hl]; · iexact Hl
    iexact Hr
  iexact H48

/-! ## The host stretches as segments -/

/-- A stretch of host operations over every HBM buffer from a valuation, the core's dues riding along. -/
def hostSeg (ops : List (HloOp τ sig (Elt F))) (hsub : ops.Forall fun op => op.bufs ⊆ StableHlo.tcRefs τ sig)
    (hfresh : ops.Forall fun op => op.fresh = ∅) (V : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) V R

/-! ## The kernel region as a segment -/

/-- The region's buffers on entry are the windows' arrays and the rest. -/
theorem entry_split (c : Dev nD) :
    (StableHlo.held (c : Thread nD τ) (Pipeline.ucRefs τ sig) (V4 m c) : sProp 𝕄)
      ⊢ iprop((dats m 0 c).arrays ((dats m 0 c).arrAt · 0) ∗ Pipeline.unscopedRest spec0 c (Vin m c)) := by
  rw [show StableHlo.held (c : Thread nD τ) (Pipeline.ucRefs τ sig) (V4 m c) = unscopedBufs c (Vin m c) from (Pipeline.unscopedBufs_held c _).symm,
    Pipeline.unscopedBufs_split₀ cfgs 0 winFacts₀0.arr_unscoped c (Vin m c)]
  exact sep_mono (arrays_in m c _ (Vin m c) (A_eq m c 0) (A_eq m c 1) (A_eq m c 2)) .rfl

/-- The buffers no window reads or writes, at two valuations that agree off the result array, are the same assertion. -/
theorem unscopedRest_congr (c : Dev nD) (W W' : (b : Ref sig .tc) → Buf (Elt F) ((c.tc : Thread nD τ).loc b))
    (h : ∀ b : Ref sig .tc, b ≠ main_v48 → W b = W' b) :
    (Pipeline.unscopedRest spec0 c W : sProp 𝕄) = Pipeline.unscopedRest spec0 c W' := by
  unfold Pipeline.unscopedRest
  refine bigSep_congr fun b hb => ?_
  have hb' : b ∉ Finset.univ.image (Pipeline.arrRef spec0) := (Finset.mem_sdiff.mp hb).2
  have h48 : b ≠ main_v48 := fun e => hb' (e ▸ Finset.mem_image.mpr ⟨2, Finset.mem_univ _, (by decide : Pipeline.arrRef spec0 2 = main_v48)⟩)
  rw [h b h48]

/-- The buffers no window reads or writes are as they were when the region is left. -/
theorem rest_eq (c : Dev nD) :
    (Pipeline.unscopedRest spec0 c (Vin m c) : sProp 𝕄) = Pipeline.unscopedRest spec0 c (fun b => V5 m (regionOut m) c b) :=
  unscopedRest_congr c _ _ fun b h48 => (V5_of m (regionOut m) c b (by simpa using h48)).symm

/-- The windows' arrays at the region's exit and the rest are every HBM buffer at the valuation after the region. -/
theorem exit_join (c : Dev nD) :
    iprop((dats m 0 c).arrays ((dats m 0 c).arrAt · cfg0.N) ∗ Pipeline.unscopedRest spec0 c (Vin m c))
      ⊢ (StableHlo.held (c : Thread nD τ) (Pipeline.ucRefs τ sig) (V5 m (regionOut m) c) : sProp 𝕄) := by
  rw [show StableHlo.held (c : Thread nD τ) (Pipeline.ucRefs τ sig) (V5 m (regionOut m) c) = unscopedBufs c (fun b => V5 m (regionOut m) c b) from (Pipeline.unscopedBufs_held c _).symm,
    Pipeline.unscopedBufs_split₀ cfgs 0 winFacts₀0.arr_unscoped c (fun b => V5 m (regionOut m) c b), rest_eq]
  refine sep_mono (arrays_out m c _ (fun b => V5 m (regionOut m) c b) ?_ ?_ ?_) .rfl
  · exact ((dats m 0 c).arrAt_in 0 rfl _).trans ((A_eq m c 0).trans (V5_of m (regionOut m) c main_v47 (by decide)).symm)
  · exact ((dats m 0 c).arrAt_in 1 rfl _).trans ((A_eq m c 1).trans (V5_of m (regionOut m) c main_v47 (by decide)).symm)
  · exact (V5_main_v48 m (regionOut m) c).symm

set_option backward.isDefEq.respectTransparency.types false in
/-- THE REGION: entered from every buffer at the valuation the host stretches left, left with the result array at
    what the write-backs made of it and every other buffer as it was. -/
def reg0 : RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (regionOut m) c) ∗ R c)
  X c := iprop(emp)
  Y c := iprop(emp)
  Z c := Pipeline.unscopedRest spec0 c (Vin m c)
  hentry c := by
    iintro ⟨⟨Hh, HO⟩, -, -⟩
    ihave H := (entry_split m c) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    imodintro
    isplitr [HO]
    · iapply (exit_join m c)
      isplitl [Ha]; · iexact Ha
      iexact HZ
    · unfold Pipeline.Dat.owesAt Pipeline.owesWithin
      icases HO with ⟨%W, -, HO⟩; iexists W; iexact HO

/-- @main as the list of its segments. -/
abbrev segs : List (Seg (pcfgs (F := F)) adm (dats m) () defs₀ 𝒱₀ L lv) :=
  [.host (hostSeg hostOps0 hostOps0_sub hostOps0_fresh (V0 m)),
   .host (hostSeg hostOps0_1 hostOps0_1_sub hostOps0_1_fresh (V1 m)),
   .host (hostSeg hostOps0_2 hostOps0_2_sub hostOps0_2_fresh (V2 m)),
   .host (hostSeg hostOps0_3 hostOps0_3_sub hostOps0_3_fresh (V3 m)),
   .region (reg0 m),
   .host (hostSeg hostOps1 hostOps1_sub hostOps1_fresh (V5 m (regionOut m)))]

set_option backward.isDefEq.respectTransparency.types false in
/-- From any memory with zero counters every weakly fair execution of @main terminates, and every final state has the
    result at the slice of the region's result array and each argument as launched. -/
theorem run_main : θ_run defs (onTc (τ := τ) (main (F := F))) ⟨m, fun _ => 0, ρ⟩ (fun r => ∀ c : Dev nD,
      r.2.mem ((c.tc : Thread nD τ).loc main_v49) = V6 m (regionOut m) c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit (pcfgs (F := F)) adm (dats m) () cellOf_inj emb₁ defs₀ 𝒱₀ L lv m ρ main (segs m)
    (fun c Q => by
      rewrite [main_chain c, Seg.run_eq_chain,
        show (segs m).map Seg.prog = [
          StableHlo.seq hostOps0, StableHlo.seq hostOps0_1, StableHlo.seq hostOps0_2, StableHlo.seq hostOps0_3,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m (regionOut m) c))
    (hch := ⟨fun _ => .rfl, fun _ => .rfl, fun _ => .rfl, fun _ => .rfl, fun _ => .rfl, fun _ => .rfl, fun _ => .rfl⟩)
    (hinit := ?_)
    (QY := fun c s => s.mem ((c.tc : Thread nD τ).loc main_v49) = V6 m (regionOut m) c main_v49
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch: every HBM buffer is held at the launch contents; the core owes nothing
    refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (V6 m (regionOut m) c) s') $$ [Hh HSI]
    · isplitl [Hh] <;> iassumption
    icases Hr with ⟨%h, HSI⟩
    imodintro
    isplitr
    · ipureintro
      have hmem : ∀ r : Ref sig .tc, (decide (r.isScoped = false) = true) → (Proc.devRef .tc r : DevRef τ sig) ∈ Pipeline.ucRefs τ sig :=
        fun r hr => Finset.mem_filter.mpr ⟨StableHlo.devRef_mem_tcRefs r, by simpa using hr⟩
      exact ⟨h (Proc.devRef .tc main_v49) (hmem main_v49 (by decide)),
        (h (Proc.devRef .tc main_arg0) (hmem main_arg0 (by decide))).trans (V6_main_arg0 m (regionOut m) c),
        (h (Proc.devRef .tc main_arg1) (hmem main_arg1 (by decide))).trans (V6_main_arg1 m (regionOut m) c),
        (h (Proc.devRef .tc main_arg2) (hmem main_arg2 (by decide))).trans (V6_main_arg2 m (regionOut m) c),
        (h (Proc.devRef .tc main_arg3) (hmem main_arg3 (by decide))).trans (V6_main_arg3 m (regionOut m) c)⟩
    · iexact HSI

end Cert.KernelIdeal.Hand

end
-- ==== Proof.Spec.lean ====
/-
  What both programs compute from the aggregated node features `a` (10000 nodes, 64 features): the matrix of inner
  products of the rectified rows, `out p q = Σ_k max (a p k) 0 · max (a q k) 0`, over the extended reals.
-/
import Idealize.ShloMosaic.PureOps.Ideal
import Idealize.ShloMosaic.Lib.ValueIdx

noncomputable section

open scoped BigOperators

namespace Cert.Spec

open Idealize.ShloMosaic Idealize.ShloMosaic.ValueIdx

/-- The inner product of the rectified rows `p` and `q` of `a`. -/
def gramAt (a : (⟨2, ![10000, 64]⟩ : Shape).Idx → EReal) (p q : Fin 10000) : EReal :=
  ∑ k : Fin 64, max (a (ix2 p k)) 0 * max (a (ix2 q k)) 0

/-- The whole matrix, index by index. -/
def gram (a : (⟨2, ![10000, 64]⟩ : Shape).Idx → EReal) : (⟨2, ![10000, 10000]⟩ : Shape).Idx → EReal :=
  fun i => gramAt a ⟨(i 0).val, (i 0).isLt⟩ ⟨(i 1).val, (i 1).isLt⟩

/-- The same over the aggregate padded to 10240 rows (the kernel's tiling: five tiles of 2048 rows). -/
def gramPadAt (a : (⟨2, ![10240, 64]⟩ : Shape).Idx → EReal) (p q : Fin 10240) : EReal :=
  ∑ k : Fin 64, max (a (ix2 p k)) 0 * max (a (ix2 q k)) 0

/-- The padded matrix, index by index. -/
def gramPad (a : (⟨2, ![10240, 64]⟩ : Shape).Idx → EReal) : (⟨2, ![10240, 10240]⟩ : Shape).Idx → EReal :=
  fun i => gramPadAt a ⟨(i 0).val, (i 0).isLt⟩ ⟨(i 1).val, (i 1).isLt⟩

end Cert.Spec

end
-- ==== Proof.KI.ArrFinal.lean ====
/-
  The result array after the last grid point. At point (i, j) of the 5 x 5 grid the body leaves in the output
  block the product of the rectified row tile i with the transpose of the rectified row tile j of the padded
  aggregate; entry (r, s) of that block is the sum over the 64 features of max(a(2048 i + r, k), 0) times
  max(a(2048 j + s, k), 0). That is entry (2048 i + r, 2048 j + s) of the matrix of inner products of rectified
  rows, and the 25 blocks tile the 10240 x 10240 array, so the array ends equal to that matrix.
-/
import proofs.«139293_j23871428231492_1_alg».proof.Proof.KI.Data
import proofs.«139293_j23871428231492_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

/-! ## One block: the product of the rectified tiles, entry by entry -/

/-- The body's load and store rectangles start at the origin. -/
private theorem origin_offsets : (![0, 0] : Fin 2 → Nat) = fun _ => 0 := funext fun a => by fin_cases a <;> rfl

/-- The left operand of the product at output entry `i` and contraction index `q` is read at row `i 0`, -/
private theorem prod_lhs_row (i : S2048x2048.Idx) (q : dot_S2048x64_S64x2048_S2048x2048_1_0_0_1_n_n.contr.Idx) :
    (dot_S2048x64_S64x2048_S2048x2048_1_0_0_1_n_n.lhsIdx i q 0).val = (i 0).val := by
  unfold DotDims.lhsIdx
  rw [dif_neg (show ¬(0 : Fin S2048x64.rank) ∈ dot_S2048x64_S64x2048_S2048x2048_1_0_0_1_n_n.lhsBatch by decide), dif_pos (show (0 : Fin S2048x64.rank) ∈ dot_S2048x64_S64x2048_S2048x2048_1_0_0_1_n_n.lhsNonContracting by decide)]
  rfl
/-- and at the column the contraction index names; -/
private theorem prod_lhs_col (i : S2048x2048.Idx) (q : dot_S2048x64_S64x2048_S2048x2048_1_0_0_1_n_n.contr.Idx) :
    (dot_S2048x64_S64x2048_S2048x2048_1_0_0_1_n_n.lhsIdx i q 1).val = (q ⟨0, by decide⟩).val :=
  dot_S2048x64_S64x2048_S2048x2048_1_0_0_1_n_n.lhsIdx_val_of_single rfl i q
/-- the right operand at the row the contraction index names, -/
private theorem prod_rhs_row (i : S2048x2048.Idx) (q : dot_S2048x64_S64x2048_S2048x2048_1_0_0_1_n_n.contr.Idx) :
    (dot_S2048x64_S64x2048_S2048x2048_1_0_0_1_n_n.rhsIdx i q 0).val = (q ⟨0, by decide⟩).val :=
  dot_S2048x64_S64x2048_S2048x2048_1_0_0_1_n_n.rhsIdx_val_of_single rfl i q
/-- and at column `i 1`. -/
private theorem prod_rhs_col (i : S2048x2048.Idx) (q : dot_S2048x64_S64x2048_S2048x2048_1_0_0_1_n_n.contr.Idx) :
    (dot_S2048x64_S64x2048_S2048x2048_1_0_0_1_n_n.rhsIdx i q 1).val = (i 1).val := by
  unfold DotDims.rhsIdx
  rw [dif_neg (show ¬(1 : Fin S64x2048.rank) ∈ dot_S2048x64_S64x2048_S2048x2048_1_0_0_1_n_n.rhsBatch by decide), dif_pos (show (1 : Fin S64x2048.rank) ∈ dot_S2048x64_S64x2048_S2048x2048_1_0_0_1_n_n.rhsNonContracting by decide)]
  rfl

/-- Entry (r, s) of the output block: the inner product over the 64 features of the rectified row `r` of the first
    tile and the rectified row `s` of the second (the product accumulates into zero, and the second factor is
    transposed, so its entry (k, s) is the tile's entry (s, k)). -/
private theorem outBlk_apply (x0 x1 : Vec Ideal S2048x64 .f32) (r s : Fin 2048) :
    outBlk x0 x1 (ix2 r s) = ∑ k : Fin 64, max (x0 (ix2 r k)) 0 * max (x1 (ix2 s k)) 0 := by
  unfold outBlk
  rw [View.canon_unit_zero origin_offsets]
  rw [View.ld_unit_zero (S := S2048x64) origin_offsets, View.ld_unit_zero (S := S2048x64) origin_offsets]
  unfold k0_pay1
  rw [shapeCast_self, shapeCast_self]
  simp only [matmul]
  rw [Ideal.matmul_constant_zero_apply, ← Equiv.sum_comp (ValueIdx.contrEquiv1 dot_S2048x64_S64x2048_S2048x2048_1_0_0_1_n_n 64 rfl rfl).symm]
  refine Finset.sum_congr rfl fun k _ => ?_
  have hk := ValueIdx.contrEquiv1_symm_val dot_S2048x64_S64x2048_S2048x2048_1_0_0_1_n_n 64 rfl rfl k
  have el : dot_S2048x64_S64x2048_S2048x2048_1_0_0_1_n_n.lhsIdx (ix2 r s) ((ValueIdx.contrEquiv1 dot_S2048x64_S64x2048_S2048x2048_1_0_0_1_n_n 64 rfl rfl).symm k) = (ix2 r k : S2048x64.Idx) := funext fun a => Fin.ext (by
    match a with
    | ⟨0, _⟩ => exact prod_lhs_row _ _
    | ⟨1, _⟩ => exact (prod_lhs_col _ _).trans hk)
  have er : dot_S2048x64_S64x2048_S2048x2048_1_0_0_1_n_n.rhsIdx (ix2 r s) ((ValueIdx.contrEquiv1 dot_S2048x64_S64x2048_S2048x2048_1_0_0_1_n_n 64 rfl rfl).symm k) = (ix2 k s : S64x2048.Idx) := funext fun a => Fin.ext (by
    match a with
    | ⟨0, _⟩ => exact (prod_rhs_row _ _).trans hk
    | ⟨1, _⟩ => exact prod_rhs_col _ _)
  rw [el, er]
  refine congrArg₂ (· * ·) ?_ ?_
  · show max (x0 (ix2 r k)) (Ideal.ofBits .f32 0x00000000#32) = _
    rw [Ideal.ofBits_zero_f32]
  · refine (transpose_apply [1, 0] _ transposes_S2048x64_p1_0_S64x2048 (ix2 k s) (ix2 s k) (fun b => match b with
      | ⟨0, _⟩ => rfl
      | ⟨1, _⟩ => rfl)).trans ?_
    show max (x1 (ix2 s k)) (Ideal.ofBits .f32 0x00000000#32) = _
    rw [Ideal.ofBits_zero_f32]

/-- So when row `r` of the first tile is row `p` of the array `a` and row `s` of the second is its row `q`, entry
    (r, s) of the block is the inner product of the rectified rows `p` and `q` of `a`. -/
private theorem outBlk_gramPadAt (a : S10240x64.Idx → EReal) (x0 x1 : Vec Ideal S2048x64 .f32) (r s : Fin 2048) (p q : Fin 10240)
    (h0 : ∀ k : Fin 64, x0 (ix2 r k) = a (ix2 p k)) (h1 : ∀ k : Fin 64, x1 (ix2 s k) = a (ix2 q k)) :
    outBlk x0 x1 (ix2 r s) = Cert.Spec.gramPadAt a p q := by
  rw [outBlk_apply]
  unfold Cert.Spec.gramPadAt
  exact Finset.sum_congr rfl fun k _ => by rw [h0 k, h1 k]

/-! ## The tiles: which rows each point reads and which block it writes -/

/-- At every grid point the first input's row tile is the output block's row tile, the second input's row tile is the
    output block's column tile, both inputs take all 64 columns, and the output's tile indices are at most 4. -/
private theorem tile_indices : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 4 ∧ win0_2.index t (1 : Fin 2) ≤ 4 :=
  (by decide +kernel : ∀ t : Fin grid0.N, _)

/-- Every one of the 5 x 5 output tiles is some grid point's. -/
private theorem tile_onto : ∀ (q0 q1 : Fin 5), ∃ t : Fin cfg0.N, win0_2.index t = ![q0.val, q1.val] :=
  (by decide +kernel : ∀ (q0 q1 : Fin 5), ∃ t : Fin grid0.N, win0_2.index t = ![q0.val, q1.val])

variable (m : (ℓ : Loc nD τ sig) → Buf (Elt Ideal) ℓ)

/-- What point `t` writes back is its block of the matrix of inner products of the rectified rows of the padded
    aggregate: entry (r, s) of the block sits at (2048 i + r, 2048 j + s) of the array, and the tiles it was computed
    from hold rows 2048 i + r and 2048 j + s. -/
private theorem flushed_gramPad (c : Dev nD) (t : Fin cfg0.N) :
    (dats (F := Ideal) m 0 c).flushed 2 t = ((cfg0.win 2).blk t).view.read (Elt Ideal) (Cert.Spec.gramPad (Vin m c main_v47)) := by
  show (cfg0.win 2).cut (grid0.coords t) ((dats m 0 c).after 2 t) = _
  rw [after_2]
  obtain ⟨e0, e1, e2, e3, e4, e5⟩ := tile_indices t
  funext j
  have hj0 : (j 0).val < 2048 := (j 0).isLt
  have hj1 : (j 1).val < 2048 := (j 1).isLt
  refine (congrArg (outBlk (iblk m c 0 t) (iblk m c 1 t)) (eq_ix2 ((cfg0.win 2).xinj (grid0.coords t) j))).trans ?_
  refine (outBlk_gramPadAt (Vin m c main_v47) (iblk m c 0 t) (iblk m c 1 t) _ _
    ⟨((((cfg0.win 2).blk t).view.emb j) 0).val, ((((cfg0.win 2).blk t).view.emb j) 0).isLt⟩
    ⟨((((cfg0.win 2).blk t).view.emb j) 1).val, ((((cfg0.win 2).blk t).view.emb j) 1).isLt⟩ ?_ ?_).trans ?_
  · intro k
    show Vin m c main_v47 (((cfg0.win 0).blk t).view.emb (ix2 ⟨(j 0).val, hj0⟩ k)) = _
    refine congrArg (Vin m c main_v47) (funext fun a => Fin.ext ?_)
    match a with
    | ⟨0, _⟩ => show win0_0.index t (0 : Fin 2) * 2048 + 1 * (j 0).val = win0_2.index t (0 : Fin 2) * 2048 + 1 * (j 0).val; rw [e0]
    | ⟨1, _⟩ => show win0_0.index t (1 : Fin 2) * 64 + 1 * k.val = k.val; rw [e1]; omega
  · intro k
    show Vin m c main_v47 (((cfg0.win 1).blk t).view.emb (ix2 ⟨(j 1).val, hj1⟩ k)) = _
    refine congrArg (Vin m c main_v47) (funext fun a => Fin.ext ?_)
    match a with
    | ⟨0, _⟩ => show win0_1.index t (0 : Fin 2) * 2048 + 1 * (j 1).val = win0_2.index t (1 : Fin 2) * 2048 + 1 * (j 1).val; rw [e2]
    | ⟨1, _⟩ => show win0_1.index t (1 : Fin 2) * 64 + 1 * k.val = k.val; rw [e3]; omega
  · rfl

/-- An index of the array is in point `t`'s block iff on each axis it lies in that tile's 2048 coordinates. -/
private theorem mem_tile (t : Fin cfg0.N) (i : S10240x10240.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v48).slice (win0_2.rect t)).set ↔ _
  rw [View.set_slice_whole, Rect.mem_set_unit]
  exact Iff.rfl

/-- The blocks tile the array: index (p, q) is in the block of the point whose tile is (p / 2048, q / 2048). -/
private theorem tiles_cover (i : S10240x10240.Idx) :
    ∃ t : Fin cfg0.N, (cfg0.win 2).flush t = true ∧ i ∈ ((cfg0.win 2).blk t).view.set := by
  have hi0 : (i 0).val < 10240 := (i 0).isLt
  have hi1 : (i 1).val < 10240 := (i 1).isLt
  obtain ⟨t, ht⟩ := tile_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_tile]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- After the last grid point the result array holds, at every index of the padded 10240 x 10240 matrix, the inner
    product of the rectified rows of the padded aggregate. -/
theorem arr_final (c : Dev nD) :
    ((dats (F := Ideal) m 0 c).arrAt 2 cfg0.N : S10240x10240.Idx → EReal) = Cert.Spec.gramPad (Vin m c main_v47) := by
  exact (dats (F := Ideal) m 0 c).arrAt_eq_of_cover 2 (Cert.Spec.gramPad (Vin m c main_v47)) (fun t _ => flushed_gramPad m c t) tiles_cover

end Cert.KernelIdeal.Hand

end
-- ==== Proof.KI.Value.lean ====
import proofs.«139293_j23871428231492_1_alg».proof.Proof.KI.ArrFinal
import Idealize.ShloMosaic.Lib.KernelVsHost

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx (ix2 eq_ix2)

/-- A row of the aggregate, below row 10000, is the same row of the aggregate padded by 240 rows at the end: the
    padding has no low part and no interior, so entry `(p, k)` of the padded array is entry `(p, k)` of the operand. -/
private theorem pad_row (a : S10000x64.Idx → EReal) (v : S_.Idx → EReal)
    (hp : S10000x64.Pads (![0, 0] : Fin 2 → Nat) ![240, 0] ![0, 0] S10240x64) (hu : 0 < S_.numel)
    (p : Fin 10000) (p' : Fin 10240) (hpp : p'.val = p.val) (k : Fin 64) :
    pad S10240x64 ![0, 0] ![240, 0] ![0, 0] a v hp hu (ix2 p' k) = a (ix2 p k) := by
  refine pad_apply_of_inside ![0, 0] ![240, 0] ![0, 0] a v hp hu (ix2 p' k) (ix2 p k) fun b => ?_
  match b with
  | ⟨0, _⟩ => show p'.val = 0 + p.val * (0 + 1); omega
  | ⟨1, _⟩ => show k.val = 0 + k.val * (0 + 1); omega

/-- The leading 10000 x 10000 corner of the inner products of the padded aggregate's rectified rows is the matrix of
    inner products of the aggregate's rectified rows: entry `(p, q)` with `p, q < 10000` is the sum over the 64 features
    of the products of the rectified entries of rows `p` and `q`, and those rows are not padding, whatever the padding
    value is. -/
private theorem slice_gramPad_pad (a : S10000x64.Idx → EReal) (v : S_.Idx → EReal)
    (hp : S10000x64.Pads (![0, 0] : Fin 2 → Nat) ![240, 0] ![0, 0] S10240x64) (hu : 0 < S_.numel)
    (hs : S10240x10240.Slices ![0, 0] S10000x10000) :
    extractStridedSlice S10000x10000 ![0, 0]
        (Cert.Spec.gramPad (pad S10240x64 ![0, 0] ![240, 0] ![0, 0] a v hp hu)) hs = Cert.Spec.gram a := by
  funext i
  obtain ⟨p, q, rfl⟩ : ∃ (p q : Fin 10000), i = ix2 p q := ⟨i 0, i 1, eq_ix2 i⟩
  have hp' : p.val < 10240 := by omega
  have hq' : q.val < 10240 := by omega
  -- the slice has offset (0, 0): entry (p, q) of the corner is entry (p, q) of the padded matrix
  refine (extractStridedSlice_apply ![0, 0] _ hs (ix2 p q) (ix2 (⟨p.val, hp'⟩ : Fin 10240) (⟨q.val, hq'⟩ : Fin 10240))
    fun b => ?_).trans ?_
  · match b with
    | ⟨0, _⟩ => show p.val = 0 + p.val; omega
    | ⟨1, _⟩ => show q.val = 0 + q.val; omega
  -- both sides are sums over the 64 features; the summands agree row by row
  · show Cert.Spec.gramPadAt _ ⟨p.val, _⟩ ⟨q.val, _⟩ = Cert.Spec.gramAt a ⟨p.val, _⟩ ⟨q.val, _⟩
    unfold Cert.Spec.gramPadAt Cert.Spec.gramAt
    refine Finset.sum_congr rfl fun k _ => ?_
    rw [pad_row a v hp hu p ⟨p.val, hp'⟩ rfl k, pad_row a v hp hu q ⟨q.val, hq'⟩ rfl k]

variable (m : (ℓ : Loc nD τ sig) → Buf (Elt Ideal) ℓ)

/-- The closing slice: the final result is the leading 10000 x 10000 corner of what the region left in its result
    array. -/
private theorem V6_main_v49 (o : Out (F := Ideal)) (c : Dev nD) :
    (V6 m o c main_v49 : S10000x10000.Idx → EReal) =
      extractStridedSlice S10000x10000 ![0, 0] (o c : S10240x10240.Idx → EReal) slices_S10240x10240_S10000x10000_0_0 := by
  show StableHlo.after hostOps1 _ (Proc.devRef .tc main_v49) = _
  after_results
  exact congrArg (fun x => extractStridedSlice S10000x10000 ![0, 0] x slices_S10240x10240_S10000x10000_0_0) (V5_main_v48 m o c)

/-- The padding stretch, from any contents `V`: it leaves in `main_v47` the array `V main_v46` padded by 240 rows, at
    the end of axis 0, of one value (the converted `V main_c_9`; which value it is does not matter below row 10000). -/
private theorem pad_step (V : Valuation τ sig (Elt Ideal)) : ∃ v : S_.Idx → EReal,
    (StableHlo.after (hostOps0_3 (F := Ideal)) V main_v47 : S10240x64.Idx → EReal) =
      pad S10240x64 ![0, 0] ![240, 0] ![0, 0] (V main_v46 : S10000x64.Idx → EReal) v pads_S10000x64_S10240x64_02400_000 h_S_ := by
  refine ⟨?_, ?_⟩
  rotate_left
  · show StableHlo.after hostOps0_3 V (Proc.devRef .tc main_v47) = _
    after_results
    rfl

/-- What the region leaves in its result array. -/
abbrev outArr : Out (F := Ideal) := fun c => (dats (F := Ideal) m 0 c).arrAt 2 cfg0.N

/-- The program's result: the inner products of the rectified rows of the aggregate `main_v46`. -/
theorem kernel_value (c : Dev nD) :
    (V6 m (outArr m) c main_v49 : S10000x10000.Idx → EReal) = Cert.Spec.gram (V3 m c main_v46) := by
  -- the result is the corner of the region's array, which holds the inner products of the padded aggregate's rows,
  -- and the padded aggregate is the aggregate `main_v46` with 240 more rows
  refine (V6_main_v49 m (outArr m) c).trans ?_
  obtain ⟨v, hv⟩ := pad_step (V3 m c)
  refine (congrArg (fun x => extractStridedSlice S10000x10000 ![0, 0] x slices_S10240x10240_S10000x10000_0_0)
    ((arr_final m c).trans (congrArg Cert.Spec.gramPad hv))).trans ?_
  exact slice_gramPad_pad _ v _ _ _

end Cert.KernelIdeal.Hand

end
-- ==== Proof.KI.Agg.lean ====
import proofs.«139293_j23871428231492_1_alg».proof.Proof.KI.Host
import proofs.«139293_j23871428231492_1_alg».proof.Proof.RefReadP

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

/-! ## The first stretch, from any contents whose edge argument is `x1`

Each value a later stretch reads is the reference's stage of the same name: the two programs apply the same
operations, over shapes and dimension records that are equal by unfolding. -/

open Cert.ReferenceIdeal.ReadP in
/-- The source list followed by the self loops `0 … 9999`. -/
theorem stage1_v3 (W : Valuation τ sig (Elt F)) (x1 : (⟨Cert.ReferenceIdeal.S2x320000, .i32⟩ : BufTy).Contents (Elt F))
    (h1 : W (Proc.devRef .tc main_arg1) = x1) :
    StableHlo.after hostOps0 W (Proc.devRef .tc main_v3) = val_main_v3 (F := F) x1 := by
  after_results
  rw [h1]
  rfl

open Cert.ReferenceIdeal.ReadP in
/-- The destination list followed by the self loops `0 … 9999`. -/
theorem stage1_v6 (W : Valuation τ sig (Elt F)) (x1 : (⟨Cert.ReferenceIdeal.S2x320000, .i32⟩ : BufTy).Contents (Elt F))
    (h1 : W (Proc.devRef .tc main_arg1) = x1) :
    StableHlo.after hostOps0 W (Proc.devRef .tc main_v6) = val_main_v6 (F := F) x1 := by
  after_results
  rw [h1]
  rfl

open Cert.ReferenceIdeal.ReadP in
/-- Which nodes have a positive degree (the degree is the scatter-add of ones at the destinations). -/
theorem stage1_v12 (W : Valuation τ sig (Elt F)) (x1 : (⟨Cert.ReferenceIdeal.S2x320000, .i32⟩ : BufTy).Contents (Elt F))
    (h1 : W (Proc.devRef .tc main_arg1) = x1) :
    StableHlo.after hostOps0 W (Proc.devRef .tc main_v12) = val_main_v12 (F := F) x1 := by
  after_results
  rw [h1]
  rfl

open Cert.ReferenceIdeal.ReadP in
/-- The inverse square roots of the degrees. -/
theorem stage1_v13 (W : Valuation τ sig (Elt F)) (x1 : (⟨Cert.ReferenceIdeal.S2x320000, .i32⟩ : BufTy).Contents (Elt F))
    (h1 : W (Proc.devRef .tc main_arg1) = x1) :
    StableHlo.after hostOps0 W (Proc.devRef .tc main_v13) = val_main_v13 (F := F) x1 := by
  after_results
  rw [h1]
  rfl

open Cert.ReferenceIdeal.ReadP in
/-- The zero that replaces the inverse square root at a node of degree zero. -/
theorem stage1_cst_2 (W : Valuation τ sig (Elt F)) :
    StableHlo.after hostOps0 W (Proc.devRef .tc main_cst_2) = val_main_cst_2 (F := F) := by
  after_results
  rfl

/-! ## The normalisation of isolated nodes -/

open Cert.ReferenceIdeal.ReadP in
/-- The inverse square root of the degree where the degree is positive, zero elsewhere. -/
theorem stage2_v14 (W : Valuation τ sig (Elt F)) (x1 : (⟨Cert.ReferenceIdeal.S2x320000, .i32⟩ : BufTy).Contents (Elt F))
    (h12 : W (Proc.devRef .tc main_v12) = val_main_v12 (F := F) x1)
    (h13 : W (Proc.devRef .tc main_v13) = val_main_v13 (F := F) x1)
    (hc : W (Proc.devRef .tc main_cst_2) = val_main_cst_2 (F := F)) :
    StableHlo.after hostOps0_1 W (Proc.devRef .tc main_v14) = val_main_v14 (F := F) x1 := by
  after_results
  simp only [StableHlo.TRef.ofBuf, StableHlo.TRef.toBuf, cast_eq]
  rw [h12, h13, hc]
  rfl

/-! ## The aggregation -/

open Cert.ReferenceIdeal.ReadP in
set_option maxHeartbeats 2000000 in
set_option maxRecDepth 8192 in
/-- The aggregate, from any contents that hold the two edge lists, the normalisation and the three float arguments:
    the edge weights (the product of the two gathered normalisations), the rows of `x0 · x2` gathered at the sources and
    scaled by the weights, their scatter-add at the destinations, plus the bias `x3` on every row. -/
theorem stage3_v46 (W : Valuation τ sig (Elt F))
    (x0 : (⟨Cert.ReferenceIdeal.S10000x64, .f32⟩ : BufTy).Contents (Elt F))
    (x1 : (⟨Cert.ReferenceIdeal.S2x320000, .i32⟩ : BufTy).Contents (Elt F))
    (x2 : (⟨Cert.ReferenceIdeal.S64x64, .f32⟩ : BufTy).Contents (Elt F))
    (x3 : (⟨Cert.ReferenceIdeal.S64, .f32⟩ : BufTy).Contents (Elt F))
    (h3 : W (Proc.devRef .tc main_v3) = val_main_v3 (F := F) x1)
    (h6 : W (Proc.devRef .tc main_v6) = val_main_v6 (F := F) x1)
    (h14 : W (Proc.devRef .tc main_v14) = val_main_v14 (F := F) x1)
    (ha0 : W (Proc.devRef .tc main_arg0) = x0)
    (ha2 : W (Proc.devRef .tc main_arg2) = x2)
    (ha3 : W (Proc.devRef .tc main_arg3) = x3) :
    StableHlo.after hostOps0_2 W (Proc.devRef .tc main_v46) = val_main_v46 (F := F) x0 x1 x2 x3 := by
  after_results_simp
  rw [h3, h6, h14, ha0, ha2, ha3]
  rfl

/-- The aggregate the kernel's program computes before its region is the reference's aggregate of the same
    arguments: the two programs run the same host operations up to there. -/
theorem agg_eq (c : Dev nD) :
    (V3 m c main_v46 : S10000x64.Idx → Elt F .f32)
      = Cert.ReferenceIdeal.ReadP.val_main_v46 (F := F) (m ((c : Thread nD τ).loc main_arg0)) (m ((c : Thread nD τ).loc main_arg1))
          (m ((c : Thread nD τ).loc main_arg2)) (m ((c : Thread nD τ).loc main_arg3)) := by
  -- the values of the first stretch, read at the launch contents
  have h12 := stage1_v12 (V0 m c) (m ((c : Thread nD τ).loc main_arg1)) rfl
  have h13 := stage1_v13 (V0 m c) (m ((c : Thread nD τ).loc main_arg1)) rfl
  have hc := stage1_cst_2 (F := F) (V0 m c)
  -- the two edge lists are not written by the normalisation; the arguments are written by no stretch
  have h3 := (V2_of m c main_v3 (by decide)).trans (stage1_v3 (V0 m c) (m ((c : Thread nD τ).loc main_arg1)) rfl)
  have h6 := (V2_of m c main_v6 (by decide)).trans (stage1_v6 (V0 m c) (m ((c : Thread nD τ).loc main_arg1)) rfl)
  have h14 := stage2_v14 (V1 m c) (m ((c : Thread nD τ).loc main_arg1)) h12 h13 hc
  have ha0 : V2 m c main_arg0 = m ((c : Thread nD τ).loc main_arg0) :=
    (V2_of m c main_arg0 (by decide)).trans ((V1_of m c main_arg0 (by decide)).trans rfl)
  have ha2 : V2 m c main_arg2 = m ((c : Thread nD τ).loc main_arg2) :=
    (V2_of m c main_arg2 (by decide)).trans ((V1_of m c main_arg2 (by decide)).trans rfl)
  have ha3 : V2 m c main_arg3 = m ((c : Thread nD τ).loc main_arg3) :=
    (V2_of m c main_arg3 (by decide)).trans ((V1_of m c main_arg3 (by decide)).trans rfl)
  exact stage3_v46 (V2 m c) _ _ _ _ h3 h6 h14 ha0 ha2 ha3

end Cert.KernelIdeal.Hand

end
-- ==== Proof.RefValue.lean ====
import proofs.«139293_j23871428231492_1_alg».proof.Proof.RefReadP
import proofs.«139293_j23871428231492_1_alg».proof.Proof.Spec

noncomputable section

namespace Cert.ReferenceIdeal.RefValue

open Cert.ReferenceIdeal Idealize.ShloMosaic

/-- The left operand's index at output index `i` and contraction index `k` is row `i 0`, column `k`. -/
theorem lidx_eq (i : S10000x10000.Idx) (k : Fin 64) :
    Cert.ReferenceIdeal.ReadP.lidx_main_v49 i k
      = ValueIdx.ix2 (⟨(i 0).val, (i 0).isLt⟩ : Fin 10000) k :=
  funext fun a => Fin.ext (by match a with | ⟨0, _⟩ => rfl | ⟨1, _⟩ => rfl)

/-- The right operand is the transpose, so its index read back in the untransposed array is row `i 1`, column `k`. -/
theorem ridx_eq (i : S10000x10000.Idx) (k : Fin 64) :
    Cert.ReferenceIdeal.ReadP.idx_main_v48 (Cert.ReferenceIdeal.ReadP.ridx_main_v49 i k)
      = ValueIdx.ix2 (⟨(i 1).val, (i 1).isLt⟩ : Fin 10000) k :=
  funext fun a => Fin.ext (by match a with | ⟨0, _⟩ => rfl | ⟨1, _⟩ => rfl)

/-- The rectified aggregate at an index is the maximum of the aggregate there and zero. -/
theorem v47_at (x0 : (⟨S10000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal)) (j : S10000x64.Idx) :
    (Cert.ReferenceIdeal.ReadP.val_main_v47 (F := Ideal) x0 x1 x2 x3 j : EReal)
      = max (Cert.ReferenceIdeal.ReadP.val_main_v46 (F := Ideal) x0 x1 x2 x3 j) 0 := by
  rw [Cert.ReferenceIdeal.ReadP.val_main_v47_apply, Cert.ReferenceIdeal.ReadP.val_main_call1_v0_apply,
    Cert.ReferenceIdeal.ReadP.val_main_call1_cst_apply, Ideal.maximumf_def, Ideal.ofBits_def, Ideal.ofBits_zero_f32]

/-- The reference's result is the inner products of the rectified rows of its aggregate `main_v46`. -/
theorem ref_value (x0 : (⟨S10000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal)) :
    (Cert.ReferenceIdeal.ReadP.val_main_v49 (F := Ideal) x0 x1 x2 x3 : S10000x10000.Idx → EReal)
      = Cert.Spec.gram (Cert.ReferenceIdeal.ReadP.val_main_v46 (F := Ideal) x0 x1 x2 x3) := by
  funext i
  rw [Cert.ReferenceIdeal.ReadP.val_main_v49_apply]
  unfold Cert.Spec.gram Cert.Spec.gramAt
  refine Finset.sum_congr rfl fun k _ => ?_
  rw [Cert.ReferenceIdeal.ReadP.val_main_v48_apply, v47_at, v47_at, lidx_eq, ridx_eq]

end Cert.ReferenceIdeal.RefValue

end
-- ==== Proof.lean ====
/-
  The certificate of the rectified Gram matrix kernel against its reference.

  Both programs compute, on the host, the same aggregate `a` of node features (10000 nodes, 64 features: the
  normalised scatter-add of the gathered rows of `z · W`, plus the bias). The reference rectifies it and multiplies it
  by its own transpose. The kernel's program pads `a` with 240 zero rows, runs one pipelined kernel over a 5 x 5 grid
  of 2048 x 2048 output tiles - tile (i, j) is the product of the rectified row tile i with the transpose of the
  rectified row tile j, both read from the ONE padded array - and slices the 10240 x 10240 result back to
  10000 x 10000. At the ideal instance both results are `out p q = Σ_k max (a p k) 0 · max (a q k) 0`: a matrix
  product into a zero accumulator and the host's dot product are the same sum, the tiles cover the padded matrix,
  and the padding rows never reach the slice. No finiteness of the inputs is needed.

  The three frames: the reference's run is its operations' composed term; each kernel program's run is the launch of
  its one region between its host stretches, the padded array's share dealt to the two windows that read it.
  The idealization rewrote nothing, so `preserves` is trivial.
-/
import proofs.«139293_j23871428231492_1_alg».proof.Defs
import proofs.«139293_j23871428231492_1_alg».proof.Proof.Gen.Kernel
import proofs.«139293_j23871428231492_1_alg».proof.Proof.Gen.KernelIdeal
import proofs.«139293_j23871428231492_1_alg».proof.Proof.Gen.ReferenceIdeal
import proofs.«139293_j23871428231492_1_alg».proof.Proof.Gen.Pre_finite_inputs
import proofs.«139293_j23871428231492_1_alg».proof.Proof.K.Run
import proofs.«139293_j23871428231492_1_alg».proof.Proof.KI.Run
import proofs.«139293_j23871428231492_1_alg».proof.Proof.KI.Value
import proofs.«139293_j23871428231492_1_alg».proof.Proof.KI.Agg
import proofs.«139293_j23871428231492_1_alg».proof.Proof.RefValue
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ =>
  (θ_run (Cert.Kernel.defs (F := Bits)) _ _).mono (fun _ h c => (h c).2) (Cert.Kernel.Hand.run_main (F := Bits) m ρ)

/-- The idealized program runs and leaves its arguments as launched. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- The reference runs and leaves its arguments as launched. -/
theorem frame_ri : Cert.frame_ReferenceIdeal := fun m ρ _ =>
  (θ_run (Cert.ReferenceIdeal.defs (F := Ideal)) _ _).mono (fun _ h c => (h c).2) (Cert.ReferenceIdeal.ValueP.run (F := Ideal) m ρ)

/-- From memories that agree on the arguments both programs end with the matrix of inner products of the rectified
    rows of the one aggregate. -/
theorem algebraic : Cert.algebraic_KernelIdeal_ReferenceIdeal := by
  intro m ρ m' ρ' _ hagree
  refine ⟨fun c => Cert.Spec.gram (Cert.ReferenceIdeal.ReadP.val_main_v46 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))), ?_, ?_⟩
  · refine (θ_run (Cert.KernelIdeal.defs (F := Ideal)) _ _).mono (fun _ h c => ⟨(h c).1.trans ?_, (h c).2⟩)
      (Cert.KernelIdeal.Hand.run_main (F := Ideal) m ρ)
    exact (Cert.KernelIdeal.Hand.kernel_value m c).trans (congrArg Cert.Spec.gram (Cert.KernelIdeal.Hand.agg_eq m c))
  · refine (θ_run (Cert.ReferenceIdeal.defs (F := Ideal)) _ _).mono (fun _ h c => ⟨(h c).1.trans ?_, (h c).2⟩)
      (Cert.ReferenceIdeal.ValueP.run (F := Ideal) m' ρ')
    rw [Cert.ReferenceIdeal.ReadP.val_main_v49_eq, Cert.ReferenceIdeal.RefValue.ref_value,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
